-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v29 : IVec S_ 1) (main_v33 : IVec S1600000 1) (main_c_11 : IVec S_ 1) : IVec S_ 1 :=
  let main_v34 : IVec S_ 1 := (fun x v => Host.reduce IntOp.andi x v reducesTo_S1600000_S_d0 h_S_) main_v33 main_c_11
  let main_v35 : IVec S_ 1 := andi main_v29 main_v34
  main_v35

def fn_part1 {F : FTy → Type} [FloatOps F] (main_arg1 : IVec S2x1600000 32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  let main_v30 : IVec S1x1600000 32 := (extractStridedSlice S1x1600000 ![1, 0] · slices_S2x1600000_S1x1600000_1_0) main_arg1
  let main_v31 : IVec S1600000 32 := shapeCast S1600000 main_v30 shapeCasts_S1x1600000_S1600000
  let main_c_10 : IVec S_ 32 := constantI S_ 32 100000#32
  let main_v32 : IVec S1600000 32 := broadcastInDim S1600000 ![] bcast_S_S1600000 main_c_10
  let main_v33 : IVec S1600000 1 := cmpi .slt main_v31 main_v32
  let main_c_11 : IVec S_ 1 := constantI S_ 1 1#1
  fn_part2 (F := F) main_v29 main_v33 main_c_11

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S10000 : Shape := ⟨1, ![10000]⟩
abbrev S10000x1 : Shape := ⟨2, ![10000, 1]⟩

abbrev nBuf : Space → Nat
  | .hbm => 42
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x64, .f32⟩
  | .hbm, ⟨31, _⟩ => ⟨S1600000x64, .i1⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S1x64, .f32⟩
  | .hbm, ⟨40, _⟩ => ⟨S1x64, .f32⟩
  | .hbm, ⟨41, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  dot_S10000x64_S64x64_S10000x64_1_1_0_0_n_n_wf : DotDims.WF S10000x64 S64x64 S10000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S_, .f32⟩
  | .hbm, ⟨39, _⟩ => ⟨S100000x1, .f32⟩
  | .hbm, ⟨40, _⟩ => ⟨S100000x1, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x64_S100000x64_1_1_0_0_n_n_wf : DotDims.WF S100000x64 S64x64 S100000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  One round of sum-aggregating message passing on a graph of 100000 nodes with 64 features, followed by a
  residual RMS normalisation, written index by index on the extended reals.

  * `nodeMsg x W b`: every node's message, `max (∑ d, x[r, d] · W[c, d] + b[c]) 0` at entry `(r, c)`
    — the affine map `x · Wᵀ + b` followed by the positive part.
  * `rmsNorm x agg w b`: with `h = x + agg`, entry `(r, c)` is
    `w[c] · (h[r, c] · rsqrt ((∑ k, h[r, k]²) / 64 + ε)) + b[c]` — each row scaled by the reciprocal root of its
    mean square, then an affine map per feature.

  The per-feature vectors are plain functions of the feature, so that a program may hold them as a row `[1, 64]`
  or as a vector `[64]`. The divisor and `ε` are kept as the binary words both programs carry; they are never
  evaluated.
-/
import Idealize.ShloMosaic.PureOps.Ideal
import Idealize.ShloMosaic.Lib.ValueIdx

noncomputable section

namespace Cert.Spec

open Idealize.ShloMosaic Idealize.ShloMosaic.ValueIdx

abbrev Nodes : Shape := ⟨2, ![100000, 64]⟩
abbrev Weights : Shape := ⟨2, ![64, 64]⟩

/-- The zero both programs compare against. -/
abbrev zeroW : EReal := Ideal.ofBits .f32 0x00000000#32
/-- The row length, as the word both programs divide by. -/
abbrev lenW : EReal := Ideal.ofBits .f32 0x42800000#32
/-- The stabiliser added to the mean square, as the word both programs carry. -/
abbrev epsW : EReal := Ideal.ofBits .f32 0x3727C5AC#32

/-- A node's message at feature `c`: the positive part of `⟨x[r, ·], W[c, ·]⟩ + b[c]`. -/
def nodeMsg (x : Nodes.Idx → EReal) (W : Weights.Idx → EReal) (b : Fin 64 → EReal) : Nodes.Idx → EReal :=
  fun i => max ((∑ d : Fin 64, x (ix2 (i 0) d) * W (ix2 (i 1) d)) + b (i 1)) zeroW

/-- The residual `x + agg`. -/
def resid (x agg : Nodes.Idx → EReal) : Nodes.Idx → EReal := fun i => x i + agg i

/-- The reciprocal root mean square of row `r` of `h`. -/
def invRms (h : Nodes.Idx → EReal) (r : Fin 100000) : EReal :=
  Ideal.rsqrt (Ideal.div (∑ k : Fin 64, h (ix2 r k) * h (ix2 r k)) lenW + epsW)

/-- The normalised residual: `w[c] · (h[r, c] · invRms h r) + b[c]`. -/
def rmsNorm (x agg : Nodes.Idx → EReal) (w b : Fin 64 → EReal) : Nodes.Idx → EReal :=
  fun i => w (i 1) * (resid x agg i * invRms (resid x agg) (i 0)) + b (i 1)

end Cert.Spec

end
-- ==== Proof.MsgBlock.lean ====
/-
  The first kernel's block: for a block of 10000 rows `x`, the weights `W` and the bias row `b`, the value stored at
  `(p, q)` is `max (∑ d, x[p, d] · W[q, d] + b[0, q]) 0`. The matrix product contracts the LAST axis of both operands,
  so it is `x · Wᵀ`; into a zero accumulator it is the plain sum; the narrowing of both operands before the product is
  the identity on the extended reals.
-/
import proofs.«430903_j15333033247245_2_alg».proof.Proof.Gen.KernelIdeal.Skeleton
import proofs.«430903_j15333033247245_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Msg

open Idealize.ShloMosaic Idealize.ShloMosaic.TcCoe Idealize.SL.Sem Idealize.ShloMosaic.ValueIdx
open Cert.KernelIdeal Cert.KernelIdeal.Gen Cert.Spec

/-! ## The product's operand indices, axis by axis -/

theorem lhs_row (i : S10000x64.Idx) (q : dot_S10000x64_S64x64_S10000x64_1_1_0_0_n_n.contr.Idx) :
    (dot_S10000x64_S64x64_S10000x64_1_1_0_0_n_n.lhsIdx i q 0).val = (i 0).val := by
  unfold DotDims.lhsIdx
  rw [dif_neg (show ¬(0 : Fin S10000x64.rank) ∈ dot_S10000x64_S64x64_S10000x64_1_1_0_0_n_n.lhsBatch by decide), dif_pos (show (0 : Fin S10000x64.rank) ∈ dot_S10000x64_S64x64_S10000x64_1_1_0_0_n_n.lhsNonContracting by decide)]
  rfl
theorem lhs_col (i : S10000x64.Idx) (q : dot_S10000x64_S64x64_S10000x64_1_1_0_0_n_n.contr.Idx) :
    (dot_S10000x64_S64x64_S10000x64_1_1_0_0_n_n.lhsIdx i q 1).val = (q ⟨0, by decide⟩).val :=
  dot_S10000x64_S64x64_S10000x64_1_1_0_0_n_n.lhsIdx_val_of_single rfl i q
theorem rhs_row (i : S10000x64.Idx) (q : dot_S10000x64_S64x64_S10000x64_1_1_0_0_n_n.contr.Idx) :
    (dot_S10000x64_S64x64_S10000x64_1_1_0_0_n_n.rhsIdx i q 0).val = (i 1).val := by
  unfold DotDims.rhsIdx
  rw [dif_neg (show ¬(0 : Fin S64x64.rank) ∈ dot_S10000x64_S64x64_S10000x64_1_1_0_0_n_n.rhsBatch by decide), dif_pos (show (0 : Fin S64x64.rank) ∈ dot_S10000x64_S64x64_S10000x64_1_1_0_0_n_n.rhsNonContracting by decide)]
  rfl
theorem rhs_col (i : S10000x64.Idx) (q : dot_S10000x64_S64x64_S10000x64_1_1_0_0_n_n.contr.Idx) :
    (dot_S10000x64_S64x64_S10000x64_1_1_0_0_n_n.rhsIdx i q 1).val = (q ⟨0, by decide⟩).val :=
  dot_S10000x64_S64x64_S10000x64_1_1_0_0_n_n.rhsIdx_val_of_single rfl i q

/-- The product into a zero accumulator at `(p, q)`: the sum over the shared last axis. -/
theorem prod_apply (l : FVec Ideal S10000x64 .bf16) (r : FVec Ideal S64x64 .bf16) (p : Fin 10000) (q : Fin 64) :
    matmul dot_S10000x64_S64x64_S10000x64_1_1_0_0_n_n none l r (constant S10000x64 .f32 0x00000000#32) (ix2 p q)
      = ∑ d : Fin 64, l (ix2 p d) * r (ix2 q d) := by
  show FloatOps.matmul dot_S10000x64_S64x64_S10000x64_1_1_0_0_n_n none l r (constant S10000x64 .f32 0x00000000#32) (ix2 p q) = _
  rw [Ideal.matmul_constant_zero_apply, ← Equiv.sum_comp (ValueIdx.contrEquiv1 dot_S10000x64_S64x64_S10000x64_1_1_0_0_n_n 64 rfl rfl).symm]
  refine Finset.sum_congr rfl fun k _ => ?_
  have hk := ValueIdx.contrEquiv1_symm_val dot_S10000x64_S64x64_S10000x64_1_1_0_0_n_n 64 rfl rfl k
  have el : dot_S10000x64_S64x64_S10000x64_1_1_0_0_n_n.lhsIdx (ix2 p q) ((ValueIdx.contrEquiv1 dot_S10000x64_S64x64_S10000x64_1_1_0_0_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_1_0_0_n_n.rhsIdx (ix2 p q) ((ValueIdx.contrEquiv1 dot_S10000x64_S64x64_S10000x64_1_1_0_0_n_n 64 rfl rfl).symm k) = ix2 q k := funext fun a => Fin.ext (by
    match a with
    | ⟨0, _⟩ => exact rhs_row _ _
    | ⟨1, _⟩ => exact (rhs_col _ _).trans hk)
  rw [el, er]

/-- What the first kernel stores at `(p, q)` of its block. -/
theorem pay_apply (x0 : Vec Ideal S10000x64 .f32) (x1 : Vec Ideal S64x64 .f32) (x2 : Vec Ideal S1x64 .f32)
    (p : Fin 10000) (q : Fin 64) :
    k0_pay1 x0 x1 x2 (ix2 p q)
      = max ((∑ d : Fin 64, x0 (ix2 p d) * x1 (ix2 q d)) + x2 (ix2 (0 : Fin 1) q)) zeroW := by
  unfold k0_pay1
  rw [maximumf_apply, addf_apply, prod_apply, shapeCast_self, broadcastTo_1b_ab_apply]
  rfl

end Cert.KernelIdeal.Msg

end
-- ==== Proof.MsgArray.lean ====
/-
  The first kernel's output array. The grid has 10 points; point `t` reads rows `10000·t … 10000·t + 9999` of `x`,
  all of `W` and the bias row, and writes the same rows of the output. Row `r` of the array is therefore written by
  point `r / 10000`, the blocks tile the array, and the array ends as `nodeMsg x W b`.
-/
import proofs.«430903_j15333033247245_2_alg».proof.Proof.Gen.KernelIdeal.Frame
import proofs.«430903_j15333033247245_2_alg».proof.Proof.MsgBlock

set_option maxRecDepth 16384

noncomputable section

namespace Cert.KernelIdeal.Msg

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- A `[1, 64]` row as a function of the feature. -/
abbrev rowOf (b2 : S1x64.Idx → EReal) : Fin 64 → EReal := fun q => b2 (ix2 (0 : Fin 1) q)

/-- The printed index maps over the grid: the row blocks of `x` and of the output move with the point, every other
    block index is `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `nodeMsg` of the arrays as the region finds them. -/
theorem flushed_eq (c : Dev nD) (t : Fin cfg0.N) :
    (dat0 V c).flushed 3 t
      = ((cfg0.win 3).blk t).view.read (Elt Ideal) (nodeMsg (V c main_arg0) (V c main_arg2) (rowOf (V c main_v0))) := by
  show (cfg0.win 3).cut (grid0.coords t) ((dat0 V c).after 3 t) = _
  rw [after0_3]
  unfold out0_3
  rw [View.canon_unit_zero origin]
  simp only [View.ld_unit_zero (S := S10000x64) origin, View.ld_unit_zero (S := S64x64) origin, View.ld_unit_zero (S := S1x64) origin]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  refine (pay_apply (iblk0 V c 0 t) (iblk0 V c 1 t) (iblk0 V c 2 t) p q).trans ?_
  rw [View.read_apply]
  unfold nodeMsg
  refine congrArg (fun z => max z zeroW) ?_
  refine congrArg₂ (· + ·) (Finset.sum_congr rfl fun d _ => congrArg₂ (· * ·) ?_ ?_) ?_
  · -- row `p` of the point's block of `x` is row `10000·t + p` of `x`
    show V c main_arg0 (((cfg0.win 0).blk t).view.emb (ix2 p d)) = V c main_arg0 _
    refine congrArg _ (funext fun a => Fin.ext ?_)
    match a with
    | ⟨0, _⟩ =>
      show win0_0.index t (0 : Fin 2) * 10000 + 1 * p.val = win0_3.index t (0 : Fin 2) * 10000 + 1 * p.val
      rw [e0, e6]
    | ⟨1, _⟩ =>
      show win0_0.index t (1 : Fin 2) * 64 + 1 * d.val = d.val
      rw [e1]; omega
  · -- the weights are one block
    show V c main_arg2 (((cfg0.win 1).blk t).view.emb (ix2 q d)) = V c main_arg2 _
    refine congrArg _ (funext fun a => Fin.ext ?_)
    match a with
    | ⟨0, _⟩ =>
      show win0_1.index t (0 : Fin 2) * 64 + 1 * q.val = win0_3.index t (1 : Fin 2) * 64 + 1 * q.val
      rw [e2, e7]
    | ⟨1, _⟩ =>
      show win0_1.index t (1 : Fin 2) * 64 + 1 * d.val = d.val
      rw [e3]; omega
  · -- the bias row is one block
    show V c main_v0 (((cfg0.win 2).blk t).view.emb (ix2 (0 : Fin 1) q)) = V c main_v0 _
    refine congrArg _ (funext fun a => Fin.ext ?_)
    match a with
    | ⟨0, _⟩ =>
      show win0_2.index t (0 : Fin 2) * 1 + 1 * 0 = 0
      rw [e4]
    | ⟨1, _⟩ =>
      show win0_2.index t (1 : Fin 2) * 64 + 1 * q.val = win0_3.index t (1 : Fin 2) * 64 + 1 * q.val
      rw [e5, e7]

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Row `r` lies in the block of point `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < cfg0.N := by show _ < grid0.N; rw [N_0]; omega
  obtain ⟨-, -, -, -, -, -, e6, e7⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e6]; show (i 0).val / 10000 * 10000 ≤ _ ∧ _ < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e7]; omega

/-- The array after the region: `nodeMsg` of the arrays as the region finds them. -/
theorem final (c : Dev nD) :
    (dat0 V c).arrAt 3 cfg0.N = nodeMsg (V c main_arg0) (V c main_arg2) (rowOf (V c main_v0)) :=
  (dat0 V c).arrAt_eq_of_cover 3 _ (fun t _ => flushed_eq V c t) cover

end Cert.KernelIdeal.Msg

end
-- ==== Proof.NormBlock.lean ====
/-
  The second kernel's block: for blocks `x`, `a` of 10000 rows and the weight and bias rows `w`, `b`, with
  `h = x + a` the value stored at `(p, q)` is
  `w[0, q] · (h[p, q] · rsqrt ((∑ k, h[p, k]²) / 64 + ε)) + b[0, q]`.
  The row sum is kept as a column `[10000, 1]` and spread back over the 64 features.
-/
import proofs.«430903_j15333033247245_2_alg».proof.Proof.Gen.KernelIdeal.Skeleton
import proofs.«430903_j15333033247245_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Norm

open Idealize.ShloMosaic Idealize.ShloMosaic.TcCoe Idealize.SL.Sem Idealize.ShloMosaic.ValueIdx
open Cert.KernelIdeal Cert.KernelIdeal.Gen Cert.Spec

/-! ## A vector kept as a column, and a column spread over the columns -/

/-- An `[a]` array cast to `[a, 1]` reads, at `(p, u)`, the operand at `p`. -/
theorem cast_col_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal root of a vector, entry by entry. -/
theorem rsqrt_apply {s : Shape} {φ : FTy} (a : FVec Ideal s φ) (i : s.Idx) : rsqrt a i = Ideal.rsqrt (a i) := rfl

/-! ## The row sum -/

/-- The sum over the 64 features of row `p`, from the zero word. -/
theorem rowSum_apply (v : FVec Ideal S10000x64 .f32) (hφ : FKind.Formats FTy.f32)
    (hacc : (0x00000000#32 : BitVec 32) = 0x00000000#32) (p : Fin 10000) :
    multiReduction .add [1] S10000 v 0x00000000#32 reduces_S10000x64_S10000 hφ hacc (ix1 p) = ∑ k : Fin 64, v (ix2 p k) := by
  refine (Ideal.multiReduction_add_single v 0x00000000#32 reduces_S10000x64_S10000 hφ hacc (ix1 p)).trans ?_
  refine Finset.sum_congr rfl fun k _ => ?_
  exact congrArg v (funext fun a => Fin.ext (by match a with | ⟨0, _⟩ => rfl | ⟨1, _⟩ => rfl))

/-- What the second kernel stores at `(p, q)` of its block. -/
theorem pay_apply (v0 v1 : Vec Ideal S10000x64 .f32) (v12 v18 : Vec Ideal S1x64 .f32) (p : Fin 10000) (q : Fin 64) :
    k1_pay1 v0 v1 v12 v18 (ix2 p q)
      = v12 (ix2 (0 : Fin 1) q) * ((v0 (ix2 p q) + v1 (ix2 p q))
          * Ideal.rsqrt (Ideal.div (∑ k : Fin 64, (v0 (ix2 p k) + v1 (ix2 p k)) * (v0 (ix2 p k) + v1 (ix2 p k))) lenW + epsW))
        + v18 (ix2 (0 : Fin 1) q) := by
  unfold k1_pay1
  rw [addf_apply, mulf_apply, broadcastTo_1b_ab_apply, broadcastTo_1b_ab_apply, mulf_apply, bcast_col_apply]
  rw [shapeCast_self, shapeCast_self, shapeCast_self, addf_apply, rsqrt_apply, addf_apply, divf_apply,
    broadcast_apply, broadcast_apply, cast_col_apply, rowSum_apply]
  simp only [mulf_apply, addf_apply]
  rfl

end Cert.KernelIdeal.Norm

end
-- ==== Proof.NormArray.lean ====
/-
  The second kernel's output array. Point `t` of its 10-point grid reads rows `10000·t … 10000·t + 9999` of `x` and of
  the aggregate, the weight row and the bias row, and writes the same rows of the output; the row sums stay inside a
  row, so a block's rows depend on no other block. The blocks tile the array, which ends as `rmsNorm x agg w b`.
-/
import proofs.«430903_j15333033247245_2_alg».proof.Proof.Gen.KernelIdeal.Frame
import proofs.«430903_j15333033247245_2_alg».proof.Proof.NormBlock

set_option maxRecDepth 16384

noncomputable section

namespace Cert.KernelIdeal.Norm

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- A `[1, 64]` row as a function of the feature. -/
abbrev rowOf (b2 : S1x64.Idx → EReal) : Fin 64 → EReal := fun q => b2 (ix2 (0 : Fin 1) q)

/-- The printed index maps over the grid: the row blocks of `x`, of the aggregate and of the output move with the
    point, every other block index is `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `rmsNorm` of the arrays as the region finds them. -/
theorem flushed_eq (c : Dev nD) (t : Fin cfg1.N) :
    (dat1 V c).flushed 4 t
      = ((cfg1.win 4).blk t).view.read (Elt Ideal)
          (rmsNorm (V c main_arg0) (V c main_v9) (rowOf (V c main_v10)) (rowOf (V c main_v11))) := by
  show (cfg1.win 4).cut (grid1.coords t) ((dat1 V c).after 4 t) = _
  rw [after1_4]
  unfold out1_4
  rw [View.canon_unit_zero origin]
  simp only [View.ld_unit_zero (S := S10000x64) origin, View.ld_unit_zero (S := S1x64) origin]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  refine (pay_apply (iblk1 V c 0 t) (iblk1 V c 1 t) (iblk1 V c 2 t) (iblk1 V c 3 t) p q).trans ?_
  rw [View.read_apply]
  -- entry `(p, q)` of the point's blocks of `x` and of the aggregate is entry `(10000·t + p, q)` of the arrays
  have hxq : iblk1 V c 0 t (ix2 p q) = V c main_arg0 (((cfg1.win 4).blk t).view.emb (ix2 p q)) := by
    show V c main_arg0 (((cfg1.win 0).blk t).view.emb (ix2 p q)) = V c main_arg0 _
    refine congrArg _ (funext fun a => Fin.ext ?_)
    match a with
    | ⟨0, _⟩ =>
      show win1_0.index t (0 : Fin 2) * 10000 + 1 * p.val = win1_4.index t (0 : Fin 2) * 10000 + 1 * p.val
      rw [e0, e8]
    | ⟨1, _⟩ =>
      show win1_0.index t (1 : Fin 2) * 64 + 1 * q.val = win1_4.index t (1 : Fin 2) * 64 + 1 * q.val
      rw [e1, e9]
  have haq : iblk1 V c 1 t (ix2 p q) = V c main_v9 (((cfg1.win 4).blk t).view.emb (ix2 p q)) := by
    show V c main_v9 (((cfg1.win 1).blk t).view.emb (ix2 p q)) = V c main_v9 _
    refine congrArg _ (funext fun a => Fin.ext ?_)
    match a with
    | ⟨0, _⟩ =>
      show win1_1.index t (0 : Fin 2) * 10000 + 1 * p.val = win1_4.index t (0 : Fin 2) * 10000 + 1 * p.val
      rw [e2, e8]
    | ⟨1, _⟩ =>
      show win1_1.index t (1 : Fin 2) * 64 + 1 * q.val = win1_4.index t (1 : Fin 2) * 64 + 1 * q.val
      rw [e3, e9]
  -- and the whole of row `p` of a block is row `10000·t + p` of its array
  have hx : ∀ k : Fin 64, iblk1 V c 0 t (ix2 p k) = V c main_arg0 (ix2 ((((cfg1.win 4).blk t).view.emb (ix2 p q)) 0) k) := fun k => by
    show V c main_arg0 (((cfg1.win 0).blk t).view.emb (ix2 p k)) = V c main_arg0 _
    refine congrArg _ (funext fun a => Fin.ext ?_)
    match a with
    | ⟨0, _⟩ =>
      show win1_0.index t (0 : Fin 2) * 10000 + 1 * p.val = win1_4.index t (0 : Fin 2) * 10000 + 1 * p.val
      rw [e0, e8]
    | ⟨1, _⟩ =>
      show win1_0.index t (1 : Fin 2) * 64 + 1 * k.val = k.val
      rw [e1]; omega
  have ha : ∀ k : Fin 64, iblk1 V c 1 t (ix2 p k) = V c main_v9 (ix2 ((((cfg1.win 4).blk t).view.emb (ix2 p q)) 0) k) := fun k => by
    show V c main_v9 (((cfg1.win 1).blk t).view.emb (ix2 p k)) = V c main_v9 _
    refine congrArg _ (funext fun a => Fin.ext ?_)
    match a with
    | ⟨0, _⟩ =>
      show win1_1.index t (0 : Fin 2) * 10000 + 1 * p.val = win1_4.index t (0 : Fin 2) * 10000 + 1 * p.val
      rw [e2, e8]
    | ⟨1, _⟩ =>
      show win1_1.index t (1 : Fin 2) * 64 + 1 * k.val = k.val
      rw [e3]; omega
  -- the weight row and the bias row are one block each
  have hw : iblk1 V c 2 t (ix2 (0 : Fin 1) q) = rowOf (V c main_v10) ((((cfg1.win 4).blk t).view.emb (ix2 p q)) 1) := by
    show V c main_v10 (((cfg1.win 2).blk t).view.emb (ix2 (0 : Fin 1) q)) = V c main_v10 _
    refine congrArg _ (funext fun a => Fin.ext ?_)
    match a with
    | ⟨0, _⟩ =>
      show win1_2.index t (0 : Fin 2) * 1 + 1 * 0 = 0
      rw [e4]
    | ⟨1, _⟩ =>
      show win1_2.index t (1 : Fin 2) * 64 + 1 * q.val = win1_4.index t (1 : Fin 2) * 64 + 1 * q.val
      rw [e5, e9]
  have hb : iblk1 V c 3 t (ix2 (0 : Fin 1) q) = rowOf (V c main_v11) ((((cfg1.win 4).blk t).view.emb (ix2 p q)) 1) := by
    show V c main_v11 (((cfg1.win 3).blk t).view.emb (ix2 (0 : Fin 1) q)) = V c main_v11 _
    refine congrArg _ (funext fun a => Fin.ext ?_)
    match a with
    | ⟨0, _⟩ =>
      show win1_3.index t (0 : Fin 2) * 1 + 1 * 0 = 0
      rw [e6]
    | ⟨1, _⟩ =>
      show win1_3.index t (1 : Fin 2) * 64 + 1 * q.val = win1_4.index t (1 : Fin 2) * 64 + 1 * q.val
      rw [e7, e9]
  rw [hxq, haq, hw, hb]
  simp only [hx, ha]
  rfl

/-- An index of the array is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v12).slice (win1_4.rect t)).set ↔ _
  rw [View.set_slice_whole, Rect.mem_set_unit]
  exact Iff.rfl

/-- Row `r` lies in the block of point `r / 10000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 10000 < cfg1.N := by show _ < grid1.N; rw [N_1]; omega
  obtain ⟨-, -, -, -, -, -, -, -, e8, e9⟩ := idx_facts ⟨(i 0).val / 10000, ht⟩
  refine ⟨⟨(i 0).val / 10000, ht⟩, flush1_4 _, ?_⟩
  rw [mem_blk]
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e8]; show (i 0).val / 10000 * 10000 ≤ _ ∧ _ < (i 0).val / 10000 * 10000 + 10000; omega
  | ⟨1, _⟩ =>
    show win1_4.index ⟨(i 0).val / 10000, ht⟩ (1 : Fin 2) * 64 ≤ (i 1).val ∧ (i 1).val < win1_4.index ⟨(i 0).val / 10000, ht⟩ (1 : Fin 2) * 64 + 64
    rw [e9]; omega

/-- The array after the region: `rmsNorm` of the arrays as the region finds them. -/
theorem final (c : Dev nD) :
    (dat1 V c).arrAt 4 cfg1.N
      = rmsNorm (V c main_arg0) (V c main_v9) (rowOf (V c main_v10)) (rowOf (V c main_v11)) :=
  (dat1 V c).arrAt_eq_of_cover 4 _ (fun t _ => flushed_eq V c t) cover

end Cert.KernelIdeal.Norm

end
-- ==== Proof.Glue.lean ====
/-
  Between and around the two kernels the program runs on the host: it lays the bias, weight and shift vectors out as
  rows, cuts the edge list into its target row and its source row, takes the message rows the source row names and sums
  them into the target rows. This module reads each buffer the kernels meet back to the launch memory, stretch by
  stretch, and states the program's result as the specification of the launch memory, with the take still in the
  program's own form: rows whose index is out of range are replaced by a fill value.
-/
import proofs.«430903_j15333033247245_2_alg».proof.Proof.Gen.KernelIdeal.Frame
import proofs.«430903_j15333033247245_2_alg».proof.Proof.MsgArray
import proofs.«430903_j15333033247245_2_alg».proof.Proof.NormArray
import Idealize.ShloMosaic.Lib.StableHlo.Run
import Idealize.ShloMosaic.PureOps.Ideal

set_option maxRecDepth 16384

noncomputable section

namespace Cert.KernelIdeal.Glue

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-! ## The host operations as functions -/

/-- Row `k` of the edge list as a vector. -/
abbrev tgtRow (e : IVec S2x1600000 32) : IVec S1600000 32 :=
  shapeCast S1600000 (extractStridedSlice S1x1600000 ![0, 0] e slices_S2x1600000_S1x1600000_0_0) shapeCasts_S1x1600000_S1600000
abbrev srcRow (e : IVec S2x1600000 32) : IVec S1600000 32 :=
  shapeCast S1600000 (extractStridedSlice S1x1600000 ![1, 0] e slices_S2x1600000_S1x1600000_1_0) shapeCasts_S1x1600000_S1600000

/-- The source indices, a negative one wrapped once by the number of rows, as a column of start indices. -/
def srcIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge: is the start index a row number, `0 ≤ · ≤ 99999`? -/
def inRangeCol (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The range test of the wrapped source indices. -/
def inRange (s : IVec S1600000 32) : IVec S1600000 1 := inRangeCol (srcIdx s)

/-- The rows of `M` at the start indices, a row whose test fails replaced by the fill word. -/
def fillSel (mask : IVec S1600000 1) (M : FVec Ideal S100000x64 .f32) (col : IVec S1600000x1 32) : FVec Ideal S1600000x64 .f32 :=
  select (broadcastInDim S1600000x64 ![0] bcast_S1600000_S1600000x64_0 mask)
    (Host.gather gather_S100000x64_S1600000x1_S1600000x64_1_0_n_n_0_1_164 M col)
    (broadcastInDim S1600000x64 ![] bcast_S_S1600000x64 (constant (F := Ideal) S_ .f32 0x7FC00000#32))

/-- The rows of `M` the source indices name, a row whose index is out of range replaced by the fill word. -/
def taken (M : FVec Ideal S100000x64 .f32) (s : IVec S1600000 32) : FVec Ideal S1600000x64 .f32 :=
  fillSel (inRange s) M (srcIdx s)

/-- The taken rows summed into the target rows, from zero. -/
def summed (U : FVec Ideal S1600000x64 .f32) (d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d) U

/-- A `[64]` vector laid out as a `[1, 64]` row. -/
abbrev asRow (v : FVec Ideal S64 .f32) : FVec Ideal S1x64 .f32 := shapeCast S1x64 v shapeCasts_S64_S1x64

/-! ## A typed reference's transport is the identity

The operations of a called function read and write their buffers through a transport along the buffer's type equation,
which holds by computation: written then read it cancels, and at a literal reference it is the identity. -/

theorem ofBuf_toBuf {T : BufTy} (x : StableHlo.TRef sig T) (v : T.Contents (Elt Ideal)) : x.ofBuf (x.toBuf v) = v := by
  obtain ⟨r, rfl, _, _⟩ := x; rfl
theorem toBuf_var (r : Ref sig .tc) (h2) (h3) (v : r.ty.Contents (Elt Ideal)) :
    (StableHlo.TRef.of (T := r.ty) r rfl h2 h3).toBuf v = v := rfl
theorem ofBuf_var (r : Ref sig .tc) (h2) (h3) (v : r.ty.Contents (Elt Ideal)) :
    (StableHlo.TRef.of (T := r.ty) r rfl h2 h3).ofBuf v = v := rfl

/-! ## Each stretch, at any contents it starts from -/

section Stretches
variable (F0 : Valuation τ sig (Elt Ideal))

theorem bias_stretch :
    StableHlo.after (hostOps0 (F := Ideal)) F0 (Proc.devRef .tc main_v0) = asRow (F0 (Proc.devRef .tc main_arg3)) := by
  dsimp only [hostOps0]; after_results; rfl

theorem tgt_stretch :
    StableHlo.after (hostOps1 (F := Ideal)) F0 (Proc.devRef .tc main_v3) = tgtRow (F0 (Proc.devRef .tc main_arg1)) := by
  dsimp only [hostOps1]; after_results; rfl

theorem src_stretch :
    StableHlo.after (hostOps1 (F := Ideal)) F0 (Proc.devRef .tc main_v5) = srcRow (F0 (Proc.devRef .tc main_arg1)) := by
  dsimp only [hostOps1]; after_results; rfl

/-! The take is 23 operations; it is read in three parts: the start indices, the range test, the selection. -/

/-- Contents after two lists of operations run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

abbrev takeIdxOps : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v5 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v5 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v5 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]
abbrev takeTestOps : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]
abbrev takeSelOps : List (HloOp τ sig (Elt Ideal)) :=
  [ StableHlo.TRef.binary (.of main_v1 : StableHlo.TRef sig ⟨S100000x64, .f32⟩) (.of main_call0_v5 : StableHlo.TRef sig ⟨S1600000x1, .i32⟩) (.of main_call0_v13 : StableHlo.TRef sig ⟨S1600000x64, .f32⟩) (fun x i => Host.gather gather_S100000x64_S1600000x1_S1600000x64_1_0_n_n_0_1_164 x i),
    StableHlo.TRef.unary (.of main_call0_v12 : StableHlo.TRef sig ⟨S1600000, .i1⟩) (.of main_call0_v14 : StableHlo.TRef sig ⟨S1600000x64, .i1⟩) (broadcastInDim S1600000x64 ![0] bcast_S1600000_S1600000x64_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1600000x64, .f32⟩) (broadcastInDim S1600000x64 ![] bcast_S_S1600000x64),
    StableHlo.TRef.ternary (.of main_call0_v14 : StableHlo.TRef sig ⟨S1600000x64, .i1⟩) (.of main_call0_v13 : StableHlo.TRef sig ⟨S1600000x64, .f32⟩) (.of main_call0_v15 : StableHlo.TRef sig ⟨S1600000x64, .f32⟩) (.of main_v6 : StableHlo.TRef sig ⟨S1600000x64, .f32⟩) select ]

theorem take_split : (hostOps1_1 (F := Ideal)) = takeIdxOps ++ (takeTestOps ++ takeSelOps) := rfl

theorem idx_part :
    StableHlo.after takeIdxOps F0 (Proc.devRef .tc main_call0_v5) = srcIdx (F0 (Proc.devRef .tc main_v5)) := by
  unfold takeIdxOps
  after_results_simp
  simp only [ofBuf_toBuf]
  rw [toBuf_var main_call0_v5, ofBuf_var main_v5]
  unfold srcIdx
  rfl

theorem test_part :
    StableHlo.after takeTestOps F0 (Proc.devRef .tc main_call0_v12) = inRangeCol (F0 (Proc.devRef .tc main_call0_v5)) := by
  unfold takeTestOps
  after_results_simp
  simp only [ofBuf_toBuf]
  rw [toBuf_var main_call0_v12, ofBuf_var main_call0_v5]
  unfold inRangeCol
  rfl

theorem sel_part :
    StableHlo.after takeSelOps F0 (Proc.devRef .tc main_v6)
      = fillSel (F0 (Proc.devRef .tc main_call0_v12)) (F0 (Proc.devRef .tc main_v1)) (F0 (Proc.devRef .tc main_call0_v5)) := by
  unfold takeSelOps
  after_results_simp
  simp only [ofBuf_toBuf]
  rw [toBuf_var main_v6, ofBuf_var main_call0_v12, ofBuf_var main_v1, ofBuf_var main_call0_v5]
  unfold fillSel
  rfl

theorem keep_takeIdxOps_main_v1 (F0 : Valuation τ sig (Elt Ideal)) :
    StableHlo.after takeIdxOps F0 (Proc.devRef .tc main_v1) = F0 (Proc.devRef .tc main_v1) :=
  StableHlo.after_of_forall_not_mem (b := Proc.devRef .tc main_v1) _ _ (List.forall_iff_forall_mem.mp (by
    simp only [takeIdxOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_takeTestOps_main_v1 (F0 : Valuation τ sig (Elt Ideal)) :
    StableHlo.after takeTestOps F0 (Proc.devRef .tc main_v1) = F0 (Proc.devRef .tc main_v1) :=
  StableHlo.after_of_forall_not_mem (b := Proc.devRef .tc main_v1) _ _ (List.forall_iff_forall_mem.mp (by
    simp only [takeTestOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_takeTestOps_main_call0_v5 (F0 : Valuation τ sig (Elt Ideal)) :
    StableHlo.after takeTestOps F0 (Proc.devRef .tc main_call0_v5) = F0 (Proc.devRef .tc main_call0_v5) :=
  StableHlo.after_of_forall_not_mem (b := Proc.devRef .tc main_call0_v5) _ _ (List.forall_iff_forall_mem.mp (by
    simp only [takeTestOps, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem take_stretch :
    StableHlo.after (hostOps1_1 (F := Ideal)) F0 (Proc.devRef .tc main_v6)
      = taken (F0 (Proc.devRef .tc main_v1)) (F0 (Proc.devRef .tc main_v5)) := by
  rw [take_split, after_append, after_append, sel_part, test_part, keep_takeTestOps_main_v1, keep_takeTestOps_main_call0_v5,
    keep_takeIdxOps_main_v1, idx_part]
  rfl

theorem sum_stretch :
    StableHlo.after (hostOps1_2 (F := Ideal)) F0 (Proc.devRef .tc main_v9)
      = summed (F0 (Proc.devRef .tc main_v6)) (F0 (Proc.devRef .tc main_v3)) := by
  dsimp only [hostOps1_2]; after_results; rfl

theorem weight_stretch :
    StableHlo.after (hostOps1_2 (F := Ideal)) F0 (Proc.devRef .tc main_v10) = asRow (F0 (Proc.devRef .tc main_arg4)) := by
  dsimp only [hostOps1_2]; after_results; rfl

theorem shift_stretch :
    StableHlo.after (hostOps1_2 (F := Ideal)) F0 (Proc.devRef .tc main_v11) = asRow (F0 (Proc.devRef .tc main_arg5)) := by
  dsimp only [hostOps1_2]; after_results; rfl

/-! A stretch leaves a buffer it does not write as it was. -/

theorem keep_hostOps0_main_arg0 (F0 : Valuation τ sig (Elt Ideal)) :
    StableHlo.after (hostOps0 (F := Ideal)) F0 (Proc.devRef .tc main_arg0) = F0 (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps0_main_arg1 (F0 : Valuation τ sig (Elt Ideal)) :
    StableHlo.after (hostOps0 (F := Ideal)) F0 (Proc.devRef .tc main_arg1) = F0 (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps0_main_arg2 (F0 : Valuation τ sig (Elt Ideal)) :
    StableHlo.after (hostOps0 (F := Ideal)) F0 (Proc.devRef .tc main_arg2) = F0 (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps0_main_arg4 (F0 : Valuation τ sig (Elt Ideal)) :
    StableHlo.after (hostOps0 (F := Ideal)) F0 (Proc.devRef .tc main_arg4) = F0 (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps0_main_arg5 (F0 : Valuation τ sig (Elt Ideal)) :
    StableHlo.after (hostOps0 (F := Ideal)) F0 (Proc.devRef .tc main_arg5) = F0 (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps1_main_arg4 (F0 : Valuation τ sig (Elt Ideal)) :
    StableHlo.after (hostOps1 (F := Ideal)) F0 (Proc.devRef .tc main_arg4) = F0 (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps1_main_arg5 (F0 : Valuation τ sig (Elt Ideal)) :
    StableHlo.after (hostOps1 (F := Ideal)) F0 (Proc.devRef .tc main_arg5) = F0 (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps1_main_v1 (F0 : Valuation τ sig (Elt Ideal)) :
    StableHlo.after (hostOps1 (F := Ideal)) F0 (Proc.devRef .tc main_v1) = F0 (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps1_1_main_arg4 (F0 : Valuation τ sig (Elt Ideal)) :
    StableHlo.after (hostOps1_1 (F := Ideal)) F0 (Proc.devRef .tc main_arg4) = F0 (Proc.devRef .tc main_arg4) :=
  StableHlo.after_of_forall_not_mem (b := Proc.devRef .tc main_arg4) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps1_1_main_arg5 (F0 : Valuation τ sig (Elt Ideal)) :
    StableHlo.after (hostOps1_1 (F := Ideal)) F0 (Proc.devRef .tc main_arg5) = F0 (Proc.devRef .tc main_arg5) :=
  StableHlo.after_of_forall_not_mem (b := Proc.devRef .tc main_arg5) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_hostOps1_1_main_v3 (F0 : Valuation τ sig (Elt Ideal)) :
    StableHlo.after (hostOps1_1 (F := Ideal)) F0 (Proc.devRef .tc main_v3) = F0 (Proc.devRef .tc main_v3) :=
  StableHlo.after_of_forall_not_mem (b := Proc.devRef .tc main_v3) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretches

end Cert.KernelIdeal.Glue

end
-- ==== Proof.KernelValue.lean ====
/-
  The program's result buffer after the last segment, as a function of the launch memory: the normalised residual of
  `x` and the aggregate, where the aggregate sums into the target rows the taken rows of the messages `nodeMsg x W b`.
  Each buffer is read back through the segments it passes: a region's output is its array function of the region's
  entry contents, a host stretch's result its operations' function, anything else is unchanged.
-/
import proofs.«430903_j15333033247245_2_alg».proof.Proof.Glue

set_option maxRecDepth 16384

noncomputable section

namespace Cert.KernelIdeal.Glue

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-! ## At the first kernel's entry -/

theorem entry0_x (c : Dev nD) : V1 m ρ c main_arg0 = m ((c : Thread nD τ).loc main_arg0) := keep_hostOps0_main_arg0 (W0 m ρ c)
theorem entry0_W (c : Dev nD) : V1 m ρ c main_arg2 = m ((c : Thread nD τ).loc main_arg2) := keep_hostOps0_main_arg2 (W0 m ρ c)
theorem entry0_b (c : Dev nD) : V1 m ρ c main_v0 = asRow (m ((c : Thread nD τ).loc main_arg3)) := bias_stretch (W0 m ρ c)

/-! ## After the first kernel -/

/-- The messages. -/
theorem msgs (c : Dev nD) :
    W2 m ρ c (Proc.devRef .tc main_v1) = nodeMsg (m ((c : Thread nD τ).loc main_arg0)) (m ((c : Thread nD τ).loc main_arg2)) (Msg.rowOf (asRow (m ((c : Thread nD τ).loc main_arg3)))) := by
  refine (W2_arr m ρ c 3).trans ((Msg.final (V1 m ρ) c).trans ?_)
  rw [entry0_x, entry0_W, entry0_b]

theorem after0_edges (c : Dev nD) : W2 m ρ c (Proc.devRef .tc main_arg1) = m ((c : Thread nD τ).loc main_arg1) :=
  (W2_of_ne m ρ c main_arg1 (by decide)).trans (keep_hostOps0_main_arg1 (W0 m ρ c))
theorem after0_w (c : Dev nD) : W2 m ρ c (Proc.devRef .tc main_arg4) = m ((c : Thread nD τ).loc main_arg4) :=
  (W2_of_ne m ρ c main_arg4 (by decide)).trans (keep_hostOps0_main_arg4 (W0 m ρ c))
theorem after0_s (c : Dev nD) : W2 m ρ c (Proc.devRef .tc main_arg5) = m ((c : Thread nD τ).loc main_arg5) :=
  (W2_of_ne m ρ c main_arg5 (by decide)).trans (keep_hostOps0_main_arg5 (W0 m ρ c))

/-! ## Through the host stretches to the second kernel's entry -/

/-- The aggregate as the second kernel finds it. -/
theorem entry1_agg (c : Dev nD) :
    V5 m ρ c main_v9
      = summed (taken (nodeMsg (m ((c : Thread nD τ).loc main_arg0)) (m ((c : Thread nD τ).loc main_arg2)) (Msg.rowOf (asRow (m ((c : Thread nD τ).loc main_arg3))))) (srcRow (m ((c : Thread nD τ).loc main_arg1))))
          (tgtRow (m ((c : Thread nD τ).loc main_arg1))) := by
  refine (sum_stretch (W4 m ρ c)).trans ?_
  have h6 : W4 m ρ c (Proc.devRef .tc main_v6)
      = taken (nodeMsg (m ((c : Thread nD τ).loc main_arg0)) (m ((c : Thread nD τ).loc main_arg2)) (Msg.rowOf (asRow (m ((c : Thread nD τ).loc main_arg3))))) (srcRow (m ((c : Thread nD τ).loc main_arg1))) := by
    refine (take_stretch (W3 m ρ c)).trans ?_
    have h1 : W3 m ρ c (Proc.devRef .tc main_v1) = nodeMsg (m ((c : Thread nD τ).loc main_arg0)) (m ((c : Thread nD τ).loc main_arg2)) (Msg.rowOf (asRow (m ((c : Thread nD τ).loc main_arg3)))) :=
      (keep_hostOps1_main_v1 (W2 m ρ c)).trans (msgs m ρ c)
    have h5 : W3 m ρ c (Proc.devRef .tc main_v5) = srcRow (m ((c : Thread nD τ).loc main_arg1)) :=
      (src_stretch (W2 m ρ c)).trans (by rw [after0_edges])
    rw [h1, h5]
  have h3 : W4 m ρ c (Proc.devRef .tc main_v3) = tgtRow (m ((c : Thread nD τ).loc main_arg1)) :=
    (keep_hostOps1_1_main_v3 (W3 m ρ c)).trans ((tgt_stretch (W2 m ρ c)).trans (by rw [after0_edges]))
  rw [h6, h3]

theorem entry1_w (c : Dev nD) : V5 m ρ c main_v10 = asRow (m ((c : Thread nD τ).loc main_arg4)) :=
  (weight_stretch (W4 m ρ c)).trans (congrArg asRow
    ((keep_hostOps1_1_main_arg4 (W3 m ρ c)).trans ((keep_hostOps1_main_arg4 (W2 m ρ c)).trans (after0_w m ρ c))))

theorem entry1_s (c : Dev nD) : V5 m ρ c main_v11 = asRow (m ((c : Thread nD τ).loc main_arg5)) :=
  (shift_stretch (W4 m ρ c)).trans (congrArg asRow
    ((keep_hostOps1_1_main_arg5 (W3 m ρ c)).trans ((keep_hostOps1_main_arg5 (W2 m ρ c)).trans (after0_s m ρ c))))

/-- `x` as the second kernel finds it: the second kernel reads it and does not write it, so it is there after the
    kernel as before, and after the kernel it is as launched. -/
theorem entry1_x (c : Dev nD) : V5 m ρ c main_arg0 = m ((c : Thread nD τ).loc main_arg0) :=
  ((W6_arr m ρ c 0).trans (((dat1 (V5 m ρ) c).arrAt_in 0 rfl _).trans (A_eq1 (V5 m ρ) c 0))).symm.trans (W6_main_arg0 m ρ c)

/-! ## The result -/

/-- The result buffer after the last segment. -/
theorem result (c : Dev nD) :
    W6 m ρ c (Proc.devRef .tc main_v12)
      = rmsNorm (m ((c : Thread nD τ).loc main_arg0))
          (summed (taken (nodeMsg (m ((c : Thread nD τ).loc main_arg0)) (m ((c : Thread nD τ).loc main_arg2)) (Msg.rowOf (asRow (m ((c : Thread nD τ).loc main_arg3))))) (srcRow (m ((c : Thread nD τ).loc main_arg1))))
            (tgtRow (m ((c : Thread nD τ).loc main_arg1))))
          (Norm.rowOf (asRow (m ((c : Thread nD τ).loc main_arg4)))) (Norm.rowOf (asRow (m ((c : Thread nD τ).loc main_arg5)))) := by
  refine (W6_arr m ρ c 4).trans ((Norm.final (V5 m ρ) c).trans ?_)
  rw [entry1_x, entry1_agg, entry1_w, entry1_s]

end Cert.KernelIdeal.Glue

end
-- ==== Proof.Edges.lean ====
/-
  The edge list's source row. The precondition says every source index `s` satisfies `-100000 ≤ s < 100000`: a valid
  index into an axis of extent 100000 in the sense that a negative index counts from the end. Both programs replace a
  negative `s` by `s + 100000`; under the precondition the result lies in `0 … 99999`, so no index is out of range.
-/
import proofs.«430903_j15333033247245_2_alg».proof.Pre_finite_inputs
import Idealize.ShloMosaic.Lib.ReduceAll
import Idealize.ShloMosaic.Lib.ValueIdx

noncomputable section

namespace Cert.Edges

open Idealize.ShloMosaic Idealize.ShloMosaic.ValueIdx

theorem ofBool_one (b : Bool) : BitVec.ofBool b = 1#1 ↔ b = true := by cases b <;> decide

/-- An index of the valid range, wrapped once when negative, is a plain row number: `0 ≤ wrap s ≤ 99999`. -/
theorem wrap_in_range (s : BitVec 32) (hge : IntOp.cmpi .sge s 4294867296#32 = 1#1) (hlt : IntOp.cmpi .slt s 100000#32 = 1#1) :
    IntOp.cmpi .sge (Scalar.select (IntOp.cmpi .slt s 0#32) (IntOp.addi s 100000#32) s) 0#32 = 1#1
    ∧ IntOp.cmpi .sle (Scalar.select (IntOp.cmpi .slt s 0#32) (IntOp.addi s 100000#32) s) 99999#32 = 1#1 := by
  have c1 : (4294867296#32 : BitVec 32).toInt = -100000 := by decide
  have c2 : (100000#32 : BitVec 32).toInt = 100000 := by decide
  have c3 : (0#32 : BitVec 32).toInt = 0 := by decide
  have c4 : (99999#32 : BitVec 32).toInt = 99999 := by decide
  have hge' : -100000 ≤ s.toInt := by
    unfold IntOp.cmpi at hge
    simp only [ofBool_one, BitVec.sle, decide_eq_true_eq] at hge
    rwa [c1] at hge
  have hlt' : s.toInt < 100000 := by
    unfold IntOp.cmpi at hlt
    simp only [ofBool_one, BitVec.slt, decide_eq_true_eq] at hlt
    rwa [c2] at hlt
  by_cases hn : s.toInt < 0
  · -- a negative index: adding the extent does not overflow
    have hc : IntOp.cmpi .slt s 0#32 = 1#1 := by
      unfold IntOp.cmpi
      simp only [ofBool_one, BitVec.slt, decide_eq_true_eq, c3]
      exact hn
    have hw : (IntOp.addi s 100000#32).toInt = s.toInt + 100000 := by
      unfold IntOp.addi
      rw [BitVec.toInt_add, c2, Int.bmod_def]
      split_ifs <;> omega
    rw [hc, select_one]
    unfold IntOp.cmpi
    simp only [ofBool_one, BitVec.sle, decide_eq_true_eq, c3, c4, hw]
    omega
  · have hc : IntOp.cmpi .slt s 0#32 = 0#1 := by
      unfold IntOp.cmpi
      have : ¬ (s.toInt < (0#32 : BitVec 32).toInt) := by rw [c3]; exact hn
      simp only [BitVec.slt, this, decide_false]
      rfl
    rw [hc, select_zero]
    unfold IntOp.cmpi
    simp only [ofBool_one, BitVec.sle, decide_eq_true_eq, c3, c4]
    omega

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

instance : Subsingleton Cert.Pre_finite_inputs.S_.Idx := ⟨fun a b => funext fun d => d.elim0⟩

variable [Cert.Pre_finite_inputs.Facts]
open Cert.Pre_finite_inputs Cert.Pre_finite_inputs.Facts

/-- The source row of the edge list, as the precondition reads it. -/
abbrev srcRow (e : IVec S2x1600000 32) : IVec S1600000 32 :=
  shapeCast S1600000 (extractStridedSlice S1x1600000 ![1, 0] e slices_S2x1600000_S1x1600000_1_0) shapeCasts_S1x1600000_S1600000

/-- What the precondition says of the source row: every entry is at least `-100000` and below `100000`. -/
theorem src_bounds {F : FTy → Type} [FloatOps F] (a0 : FVec F S100000x64 .f32) (e : IVec S2x1600000 32)
    (a2 : FVec F S64x64 .f32) (a3 a4 a5 : FVec F S64 .f32)
    (h : Cert.Pre_finite_inputs.fn (F := F) a0 e a2 a3 a4 a5 = fun _ => 1#1) (n : S1600000.Idx) :
    IntOp.cmpi .sge (srcRow e n) 4294867296#32 = 1#1 ∧ IntOp.cmpi .slt (srcRow e n) 100000#32 = 1#1 := by
  have h0 := congrFun h ix0
  dsimp only [Cert.Pre_finite_inputs.fn, Cert.Pre_finite_inputs.fn_part1, Cert.Pre_finite_inputs.fn_part2] at h0
  obtain ⟨h1, hlt⟩ := IntOp.andi_eq_one.1 h0
  obtain ⟨-, hge⟩ := IntOp.andi_eq_one.1 h1
  exact ⟨Host.reduce_andi_all _ _ _ _ _ hge n, Host.reduce_andi_all _ _ _ _ _ hlt n⟩

end Cert.Edges

end
-- ==== Proof.InRange.lean ====
/-
  When every source index `s` satisfies `-100000 ≤ s < 100000`, its wrapped value is a row number, the per-edge
  range test is 1 everywhere, and taking rows with a fill for out-of-range indices is the plain gather.
-/
import proofs.«430903_j15333033247245_2_alg».proof.Proof.Glue
import proofs.«430903_j15333033247245_2_alg».proof.Proof.Edges
import Idealize.ShloMosaic.Lib.Pipeline.Value
import Idealize.ShloMosaic.PureOps.Reduce

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.Spec

/-- The valid range of a source row, as the precondition states it. -/
def Valid (s : IVec S1600000 32) : Prop :=
  ∀ n : S1600000.Idx, IntOp.cmpi .sge (s n) 4294867296#32 = 1#1 ∧ IntOp.cmpi .slt (s n) 100000#32 = 1#1

/-- Under the valid range every edge passes the range test. -/
theorem inRange_one (s : IVec S1600000 32) (hs : Valid s) (n : S1600000.Idx) : inRange s n = 1#1 := by
  unfold inRange inRangeCol
  rw [Host.reduce_eq_foldl]
  refine Cert.Edges.foldl_andi_ones _ _ fun i _ => ?_
  exact IntOp.andi_eq_one.2 ⟨(Cert.Edges.wrap_in_range _ (hs _).1 (hs _).2).1, (Cert.Edges.wrap_in_range _ (hs _).1 (hs _).2).2⟩

/-- Under the valid range the take with a fill is the plain gather. -/
theorem taken_eq_gather (M : FVec Ideal S100000x64 .f32) (s : IVec S1600000 32) (hs : Valid s) :
    taken M s = Host.gather gather_S100000x64_S1600000x1_S1600000x64_1_0_n_n_0_1_164 M (srcIdx s) := by
  funext j
  unfold taken fillSel
  rw [select_apply]
  have hm : broadcastInDim S1600000x64 ![0] bcast_S1600000_S1600000x64_0 (inRange s) j = 1#1 := by
    rw [broadcastInDim_apply _ bcast_S1600000_S1600000x64_0 (inRange s) j (ix1 (j 0)) (fun a => match a with
      | ⟨0, _⟩ => by show (j 0).val = if (1600000 : Nat) = 1 then 0 else (j 0).val; rw [if_neg (by decide)])]
    exact inRange_one s hs _
  rw [hm, select_one]

end Cert.KernelIdeal.Glue

end
-- ==== Proof.RefSide.lean ====
/-
  The reference, stage by stage, is the specification: its messages are `nodeMsg x W b`, and its result is
  `rmsNorm x agg w b` where `agg` sums, into each target row, the message rows its edges gather. Which rows an edge
  reads and writes depends on the edge list only, so the aggregate is kept as ONE function `aggOf` of the messages
  and the edge list and is never opened.
-/
import proofs.«430903_j15333033247245_2_alg».proof.Proof.Gen.ReferenceIdeal.Run
import proofs.«430903_j15333033247245_2_alg».proof.Proof.Gen.ReferenceIdeal.Read
import proofs.«430903_j15333033247245_2_alg».proof.Proof.Spec
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Spec

/-- A `[64]` vector as a function of the feature. -/
abbrev vecOf (v : S64.Idx → EReal) : Fin 64 → EReal := fun q => v (ix1 q)

/-- The sum, into each target row, of the rows of `M` the edges gather. -/
def aggOf (M : FVec Ideal S100000x64 .f32) (e : IVec S2x1600000 32) : FVec Ideal S100000x64 .f32 :=
  Host.scatterAdd (F := Ideal) scatter_S100000x64_S1600000x1_S1600000x64_1_0_0_1 (val_main_v16 (F := Ideal)) (val_main_v17 (F := Ideal) e)
    (Host.gather gather_S100000x64_S1600000x1_S1600000x64_1_0_n_n_0_1_164 M (val_main_v14 (F := Ideal) e))

/-- The reference's messages. -/
theorem msg_eq (x0 : (⟨S100000x64, .f32⟩ : BufTy).Contents (Elt Ideal)) (x2 : (⟨S64x64, .f32⟩ : BufTy).Contents (Elt Ideal))
    (x3 : (⟨S64, .f32⟩ : BufTy).Contents (Elt Ideal)) :
    val_main_v4 (F := Ideal) x0 x2 x3 = nodeMsg x0 x2 (vecOf x3) := by
  funext i
  rw [val_main_v4_apply, val_main_v3_apply, val_main_v0_apply, val_main_v2_apply, val_main_v1_apply,
    val_main_call0_v0_apply, val_main_call0_cst_apply]
  have el : ∀ k : Fin 64, lidx_main_v0 i k = ix2 (i 0) k := fun k =>
    funext fun a => Fin.ext (by match a with | ⟨0, _⟩ => rfl | ⟨1, _⟩ => rfl)
  have er : ∀ k : Fin 64, ridx_main_v0 i k = ix2 (i 1) k := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  simp only [el, er, eb]
  rfl

/-- The reference's aggregate is `aggOf` of its messages. -/
theorem agg_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal)) :
    val_main_v18 (F := Ideal) x0 x1 x2 x3 = aggOf (nodeMsg x0 x2 (vecOf x3)) x1 := by
  unfold val_main_v18 val_main_v15 aggOf
  rw [msg_eq]

/-- The reference's result over its aggregate. -/
theorem norm_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 x4 x5 : (⟨S64, .f32⟩ : BufTy).Contents (Elt Ideal)) :
    val_main_v35 (F := Ideal) x0 x1 x2 x3 x4 x5
      = rmsNorm x0 (val_main_v18 (F := Ideal) x0 x1 x2 x3) (vecOf x4) (vecOf x5) := by
  funext i
  rw [val_main_v35_apply, val_main_v32_apply, val_main_v34_apply, val_main_v33_apply, val_main_v31_apply, val_main_v30_apply,
    val_main_v29_apply, val_main_v28_apply, val_main_v27_apply, val_main_v26_apply, val_main_v25_apply, val_main_cst_3_apply,
    val_main_v24_apply, val_main_v23_apply, val_main_cst_2_apply, val_main_v22_apply, val_main_v21_apply, val_main_cst_1_apply,
    val_main_v19_apply]
  have e4 : idx_main_v30 (idx_main_v31 i) = ix1 (i 1) := funext fun a => Fin.ext (by match a with | ⟨0, _⟩ => rfl)
  have e5 : idx_main_v33 (idx_main_v34 i) = ix1 (i 1) := funext fun a => Fin.ext (by match a with | ⟨0, _⟩ => rfl)
  have ek : ∀ k : Fin 64, idx_main_v21 (idx_main_v22 (idx_main_v28 i)) k = ix2 (i 0) k := fun k =>
    funext fun a => Fin.ext (by match a with | ⟨0, _⟩ => rfl | ⟨1, _⟩ => rfl)
  simp only [e4, e5, ek, val_main_v20_apply, val_main_v19_apply, Ideal.addf_def, Ideal.mulf_def, Ideal.hostDivf_def,
    Ideal.hostUnary_rsqrt_def, Ideal.ofBits_def, Ideal.ofBits_zero_f32, zero_add]
  rfl

/-- The reference run's result term is the specification of the launch contents. -/
theorem result_eq (m : (ℓ : Loc nD τ sig) → Buf (Elt Ideal) ℓ) (c : Dev nD) :
    Cert.ReferenceIdeal.Value.res_main_v35 m c
      = rmsNorm (m ((c.tc : Thread nD τ).loc main_arg0))
          (aggOf (nodeMsg (m ((c.tc : Thread nD τ).loc main_arg0)) (m ((c.tc : Thread nD τ).loc main_arg2))
            (vecOf (m ((c.tc : Thread nD τ).loc main_arg3)))) (m ((c.tc : Thread nD τ).loc main_arg1)))
          (vecOf (m ((c.tc : Thread nD τ).loc main_arg4))) (vecOf (m ((c.tc : Thread nD τ).loc main_arg5))) := by
  rw [val_main_v35_eq, norm_eq, agg_eq]

end Cert.ReferenceIdeal.RefValue

end
-- ==== Proof.Bridge.lean ====
/-
  The two programs meet. A `[64]` vector laid out as a `[1, 64]` row reads, at feature `q`, the vector at `q`. The
  kernel's aggregate — take with a fill, then sum into the target rows — is the reference's aggregate when every source
  index is in the valid range: the fill is never used, and what remains is the same gather and the same sum applied
  to the same index columns. The precondition states the valid range.
-/
import proofs.«430903_j15333033247245_2_alg».proof.Defs
import proofs.«430903_j15333033247245_2_alg».proof.Proof.KernelValue
import proofs.«430903_j15333033247245_2_alg».proof.Proof.InRange
import proofs.«430903_j15333033247245_2_alg».proof.Proof.RefSide
import proofs.«430903_j15333033247245_2_alg».proof.Proof.Gen.Pre_finite_inputs
import Idealize.ShloMosaic.Lib.ValueLayout

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.Spec

/-- A vector laid out as a row, read as a function of the feature, is the vector. -/
theorem row_msg (v : FVec Ideal S64 .f32) : Msg.rowOf (asRow v) = Cert.ReferenceIdeal.RefValue.vecOf v :=
  funext fun q => shapeCast_a_1a_apply v shapeCasts_S64_S1x64 (0 : Fin 1) q
theorem row_norm (v : FVec Ideal S64 .f32) : Norm.rowOf (asRow v) = Cert.ReferenceIdeal.RefValue.vecOf v :=
  funext fun q => shapeCast_a_1a_apply v shapeCasts_S64_S1x64 (0 : Fin 1) q

/-- Under the valid range the kernel's aggregate is the reference's. -/
theorem agg_bridge (M : FVec Ideal S100000x64 .f32) (e : IVec S2x1600000 32) (hs : Valid (srcRow e)) :
    summed (taken M (srcRow e)) (tgtRow e) = Cert.ReferenceIdeal.RefValue.aggOf M e := by
  rw [taken_eq_gather M _ hs]
  unfold summed srcIdx Cert.ReferenceIdeal.RefValue.aggOf Cert.ReferenceIdeal.Read.val_main_v16 Cert.ReferenceIdeal.Read.val_main_cst Cert.ReferenceIdeal.Read.val_main_v17 Cert.ReferenceIdeal.Read.val_main_v6 Cert.ReferenceIdeal.Read.val_main_v5 Cert.ReferenceIdeal.Read.val_main_v14 Cert.ReferenceIdeal.Read.val_main_v13 Cert.ReferenceIdeal.Read.val_main_v12 Cert.ReferenceIdeal.Read.val_main_v11 Cert.ReferenceIdeal.Read.val_main_c_0 Cert.ReferenceIdeal.Read.val_main_v10 Cert.ReferenceIdeal.Read.val_main_v9 Cert.ReferenceIdeal.Read.val_main_c Cert.ReferenceIdeal.Read.val_main_v8 Cert.ReferenceIdeal.Read.val_main_v7
  rfl

/-- The precondition gives the valid range of the source row. -/
theorem valid_of_pre (m : (ℓ : Loc nD τ sig) → Buf (Elt Ideal) ℓ)
    (hpre : Cert.Pre_KernelIdeal (hPre_finite_inputs := Cert.Pre_finite_inputs.Gen.facts) m) (c : Dev nD) :
    Valid (srcRow (m ((c : Thread nD τ).loc main_arg1))) :=
  fun n => @Cert.Edges.src_bounds Cert.Pre_finite_inputs.Gen.facts Ideal _ _ _ _ _ _ _ (hpre c) n

end Cert.KernelIdeal.Glue

end
-- ==== Proof.lean ====
/-
  The kernel computes, for a graph of 100000 nodes with 64 features and 1600000 edges,
  `out = w · (h · rsqrt (mean (h²) + ε)) + b` with `h = x + agg`, where `agg` sums into each target node the messages
  `relu (x · Wᵀ + bias)` of its edges' source nodes. The two dense stages are tiled kernels over 10 blocks of 10000
  rows; the gather and the sum between them run on the host, in both programs alike, except that the kernel's program
  replaces a row whose source index is out of range by a fill value while the reference clamps the index. The
  precondition keeps every source index in `-100000 ≤ s < 100000` (a negative index counts from the end, in both
  programs), where the two agree.

  * Each kernel's output array is its specification of the arrays the kernel finds (MsgArray, NormArray), each block
    depending only on its own rows.
  * The program's result is read back through its segments to the launch memory (Glue, KernelValue).
  * The reference's run is the same specification (RefSide), and under the precondition the aggregates agree (InRange,
    Bridge). No law of the extended reals beyond this is used: both sides are the same expression.
-/
import proofs.«430903_j15333033247245_2_alg».proof.Defs
import proofs.«430903_j15333033247245_2_alg».proof.Proof.Gen.Kernel
import proofs.«430903_j15333033247245_2_alg».proof.Proof.Gen.Kernel.Skeleton
import proofs.«430903_j15333033247245_2_alg».proof.Proof.Gen.Kernel.Launch
import proofs.«430903_j15333033247245_2_alg».proof.Proof.Gen.Kernel.Points
import proofs.«430903_j15333033247245_2_alg».proof.Proof.Gen.Kernel.Frame
import proofs.«430903_j15333033247245_2_alg».proof.Proof.Gen.KernelIdeal
import proofs.«430903_j15333033247245_2_alg».proof.Proof.Gen.KernelIdeal.Skeleton
import proofs.«430903_j15333033247245_2_alg».proof.Proof.Gen.KernelIdeal.Launch
import proofs.«430903_j15333033247245_2_alg».proof.Proof.Gen.KernelIdeal.Points
import proofs.«430903_j15333033247245_2_alg».proof.Proof.Gen.KernelIdeal.Frame
import proofs.«430903_j15333033247245_2_alg».proof.Proof.Gen.ReferenceIdeal
import proofs.«430903_j15333033247245_2_alg».proof.Proof.Gen.ReferenceIdeal.Run
import proofs.«430903_j15333033247245_2_alg».proof.Proof.Gen.Pre_finite_inputs
import proofs.«430903_j15333033247245_2_alg».proof.Proof.KernelRun
import proofs.«430903_j15333033247245_2_alg».proof.Proof.Bridge
import Idealize.ShloMosaic.Adequacy
import Idealize.ShloMosaic.Init

noncomputable section

namespace Cert.Proof

open Idealize.ShloMosaic Idealize.ShloMosaic.TcCoe Idealize.SL.Sem

/-- From memories agreeing on the arguments both programs end with the same result array: the kernel's program at the
    specification of its launch memory, the reference at the same specification of its own. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v12),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine Eq.trans ?_ (Cert.KernelIdeal.Glue.result m ρ c).symm
  rw [Cert.ReferenceIdeal.RefValue.result_eq, a0, a1, a2, a3, a4, a5, Cert.KernelIdeal.Glue.row_msg,
    Cert.KernelIdeal.Glue.agg_bridge _ _ (Cert.KernelIdeal.Glue.valid_of_pre m hpre c),
    Cert.KernelIdeal.Glue.row_norm, Cert.KernelIdeal.Glue.row_norm]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
